-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x64x64 : Shape := ⟨4, ![8, 1, 64, 64]⟩
abbrev S1 : Shape := ⟨1, ![1]⟩
abbrev S1x64x64 : Shape := ⟨3, ![1, 64, 64]⟩
abbrev S4096x64x64 : Shape := ⟨3, ![4096, 64, 64]⟩
abbrev S_ : Shape := ⟨0, ![]⟩

class Facts : Prop where
  bcast_S_S8x1x64x64 : S_.BroadcastsInDim S8x1x64x64 (![] : Fin 0 → Fin S8x1x64x64.rank)
  reducesTo_S8x1x64x64_S_d0_1_2_3 : S8x1x64x64.ReducesTo [0, 1, 2, 3] S_
  h_S_ : 0 < S_.numel
  bcast_S_S1 : S_.BroadcastsInDim S1 (![] : Fin 0 → Fin S1.rank)
  reducesTo_S1_S_d0 : S1.ReducesTo [0] S_
  bcast_S_S1x64x64 : S_.BroadcastsInDim S1x64x64 (![] : Fin 0 → Fin S1x64x64.rank)
  reducesTo_S1x64x64_S_d0_1_2 : S1x64x64.ReducesTo [0, 1, 2] S_
  bcast_S_S4096x64x64 : S_.BroadcastsInDim S4096x64x64 (![] : Fin 0 → Fin S4096x64x64.rank)
  reducesTo_S4096x64x64_S_d0_1_2 : S4096x64x64.ReducesTo [0, 1, 2] S_

variable [Facts]

def fn_part1 {F : FTy → Type} [FloatOps F] (main_arg4 : FVec F S4096x64x64 .f32) (main_v13 : IVec S_ 1) (main_v16 : IVec S1x64x64 1) : IVec S_ 1 :=
  let main_c_5 : IVec S_ 1 := constantI S_ 1 1#1
  let main_v17 : IVec S_ 1 := (fun x v => Host.reduce IntOp.andi x v reducesTo_S1x64x64_S_d0_1_2 h_S_) main_v16 main_c_5
  let main_v18 : IVec S_ 1 := andi main_v13 main_v17
  let main_v19 : FVec F S4096x64x64 .f32 := Host.absf main_arg4
  let main_cst_6 : FVec F S_ .f32 := constant S_ .f32 0x7F800000#32
  let main_v20 : FVec F S4096x64x64 .f32 := broadcastInDim S4096x64x64 ![] bcast_S_S4096x64x64 main_cst_6
  let main_v21 : IVec S4096x64x64 1 := cmpf .olt main_v19 main_v20
  let main_c_7 : IVec S_ 1 := constantI S_ 1 1#1
  let main_v22 : IVec S_ 1 := (fun x v => Host.reduce IntOp.andi x v reducesTo_S4096x64x64_S_d0_1_2 h_S_) main_v21 main_c_7
  let main_v23 : IVec S_ 1 := andi main_v18 main_v22
  main_v23

def fn {F : FTy → Type} [FloatOps F] (main_arg0 : FVec F S8x1x64x64 .f32) (main_arg1 : FVec F S1 .f32) (main_arg2 : FVec F S1x64x64 .f32) (main_arg3 : FVec F S1x64x64 .f32) (main_arg4 : FVec F S4096x64x64 .f32) : IVec S_ 1 :=
  let main_v0 : FVec F S8x1x64x64 .f32 := Host.absf main_arg0
  let main_cst : FVec F S_ .f32 := constant S_ .f32 0x7F800000#32
  let main_v1 : FVec F S8x1x64x64 .f32 := broadcastInDim S8x1x64x64 ![] bcast_S_S8x1x64x64 main_cst
  let main_v2 : IVec S8x1x64x64 1 := cmpf .olt main_v0 main_v1
  let main_c : IVec S_ 1 := constantI S_ 1 1#1
  let main_v3 : IVec S_ 1 := (fun x v => Host.reduce IntOp.andi x v reducesTo_S8x1x64x64_S_d0_1_2_3 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1x64x64 .f32 := Host.absf main_arg2
  let main_cst_2 : FVec F S_ .f32 := constant S_ .f32 0x7F800000#32
  let main_v10 : FVec F S1x64x64 .f32 := broadcastInDim S1x64x64 ![] bcast_S_S1x64x64 main_cst_2
  let main_v11 : IVec S1x64x64 1 := cmpf .olt main_v9 main_v10
  let main_c_3 : IVec S_ 1 := constantI S_ 1 1#1
  let main_v12 : IVec S_ 1 := (fun x v => Host.reduce IntOp.andi x v reducesTo_S1x64x64_S_d0_1_2 h_S_) main_v11 main_c_3
  let main_v13 : IVec S_ 1 := andi main_v8 main_v12
  let main_v14 : FVec F S1x64x64 .f32 := Host.absf main_arg3
  let main_cst_4 : FVec F S_ .f32 := constant S_ .f32 0x7F800000#32
  let main_v15 : FVec F S1x64x64 .f32 := broadcastInDim S1x64x64 ![] bcast_S_S1x64x64 main_cst_4
  let main_v16 : IVec S1x64x64 1 := cmpf .olt main_v14 main_v15
  fn_part1 (F := F) main_arg4 main_v13 main_v16
-- ==== Kernel.lean ====
abbrev S8x1x64x64 : Shape := ⟨4, ![8, 1, 64, 64]⟩
abbrev S1 : Shape := ⟨1, ![1]⟩
abbrev S1x64x64 : Shape := ⟨3, ![1, 64, 64]⟩
abbrev S4096x64x64 : Shape := ⟨3, ![4096, 64, 64]⟩
abbrev S4096x4096 : Shape := ⟨2, ![4096, 4096]⟩
abbrev S8x4096 : Shape := ⟨2, ![8, 4096]⟩
abbrev S1x4096 : Shape := ⟨2, ![1, 4096]⟩
abbrev S1024x2048 : Shape := ⟨2, ![1024, 2048]⟩
abbrev S8x2048 : Shape := ⟨2, ![8, 2048]⟩
abbrev S1x2048 : Shape := ⟨2, ![1, 2048]⟩
abbrev S2048 : Shape := ⟨1, ![2048]⟩
abbrev S_ : Shape := ⟨0, ![]⟩

abbrev nBuf : Space → Nat
  | .hbm => 30
  | .vmem => 11
  | .smem => 0
  | _ => 0

abbrev bufTy : (tb : Table) → Fin (tcTables nBuf tb) → BufTy
  | .hbm, ⟨0, _⟩ => ⟨S8x1x64x64, .f32⟩
  | .hbm, ⟨1, _⟩ => ⟨S1, .f32⟩
  | .hbm, ⟨2, _⟩ => ⟨S1x64x64, .f32⟩
  | .hbm, ⟨3, _⟩ => ⟨S1x64x64, .f32⟩
  | .hbm, ⟨4, _⟩ => ⟨S4096x64x64, .f32⟩
  | .hbm, ⟨5, _⟩ => ⟨S4096x4096, .f32⟩
  | .hbm, ⟨6, _⟩ => ⟨S8x4096, .f32⟩
  | .hbm, ⟨7, _⟩ => ⟨S1x4096, .f32⟩
  | .hbm, ⟨8, _⟩ => ⟨S1x4096, .f32⟩
  | .hbm, ⟨9, _⟩ => ⟨S8x4096, .f32⟩
  | .hbm, ⟨10, _⟩ => ⟨S8x1x64x64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S1x64x64, .f32⟩
  | .hbm, ⟨23, _⟩ => ⟨S1x64x64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S1, .f32⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S8x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S8x2048, .f32⟩
  | .local _ .vmem, ⟨9, _⟩ => ⟨S8x2048, .f32⟩
  | .local _ .vmem, ⟨10, _⟩ => ⟨S1x2048, .f32⟩
  | _, _ => ⟨S8x1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4096x64x64_S4096x4096 : S4096x64x64.ShapeCasts S4096x4096
  shapeCasts_S8x1x64x64_S8x4096 : S8x1x64x64.ShapeCasts S8x4096
  shapeCasts_S1x64x64_S1x4096 : S1x64x64.ShapeCasts S1x4096
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reduces_S1024x2048_S2048 : S1024x2048.Reduces [0] S2048
  shapeCasts_S2048_S1x2048 : S2048.ShapeCasts S1x2048
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  broadcasts_S1x2048_S8x2048 : S1x2048.Broadcasts S8x2048
  shapeCasts_S8x4096_S8x1x64x64 : S8x4096.ShapeCasts S8x1x64x64
  bcast_S_S1 : S_.BroadcastsInDim S1 (![] : Fin 0 → Fin S1.rank)
  reducesTo_S1x64x64_S_d0_1_2 : S1x64x64.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x4096.size a
  hwx0_0 : ∀ i : grid0.Coords, EltTy.bits .f32 = 32 ∨ (Rect.block (s := S4096x4096) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x4096.size a
  hwx0_1 : ∀ i : grid0.Coords, EltTy.bits .f32 = 32 ∨ (Rect.block (s := S8x4096) S8x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x2048.size a ≤ S8x4096.size a
  hwx0_4 : ∀ i : grid0.Coords, EltTy.bits .f32 = 32 ∨ (Rect.block (s := S8x4096) S8x2048.size (cc0_transform_4 i) (hinb0_4 i)).WholeWords (EltTy.packing .f32)

variable [Facts₀]

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x1x64x64 : Shape := ⟨4, ![8, 1, 64, 64]⟩
abbrev S1 : Shape := ⟨1, ![1]⟩
abbrev S1x64x64 : Shape := ⟨3, ![1, 64, 64]⟩
abbrev S4096x64x64 : Shape := ⟨3, ![4096, 64, 64]⟩
abbrev S1x4096x64x64 : Shape := ⟨4, ![1, 4096, 64, 64]⟩
abbrev S8x4096x64x64 : Shape := ⟨4, ![8, 4096, 64, 64]⟩
abbrev S_ : Shape := ⟨0, ![]⟩
abbrev S8x64x64 : Shape := ⟨3, ![8, 64, 64]⟩
abbrev S1x1x64x64 : Shape := ⟨4, ![1, 1, 64, 64]⟩

abbrev nBuf : Space → Nat
  | .hbm => 38
  | .vmem => 0
  | .smem => 0
  | _ => 0

abbrev bufTy : (tb : Table) → Fin (tcTables nBuf tb) → BufTy
  | .hbm, ⟨0, _⟩ => ⟨S8x1x64x64, .f32⟩
  | .hbm, ⟨1, _⟩ => ⟨S1, .f32⟩
  | .hbm, ⟨2, _⟩ => ⟨S1x64x64, .f32⟩
  | .hbm, ⟨3, _⟩ => ⟨S1x64x64, .f32⟩
  | .hbm, ⟨4, _⟩ => ⟨S4096x64x64, .f32⟩
  | .hbm, ⟨5, _⟩ => ⟨S1x4096x64x64, .f32⟩
  | .hbm, ⟨6, _⟩ => ⟨S8x4096x64x64, .f32⟩
  | .hbm, ⟨7, _⟩ => ⟨S8x4096x64x64, .f32⟩
  | .hbm, ⟨8, _⟩ => ⟨S8x4096x64x64, .f32⟩
  | .hbm, ⟨9, _⟩ => ⟨S_, .f32⟩
  | .hbm, ⟨10, _⟩ => ⟨S8x64x64, .f32⟩
  | .hbm, ⟨11, _⟩ => ⟨S8x1x64x64, .f32⟩
  | .hbm, ⟨12, _⟩ => ⟨S8x1x64x64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S1x64x64, .f32⟩
  | .hbm, ⟨25, _⟩ => ⟨S1x64x64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S1, .f32⟩
  | .hbm, ⟨32, _⟩ => ⟨S1x1x64x64, .f32⟩
  | .hbm, ⟨33, _⟩ => ⟨S8x1x64x64, .f32⟩
  | .hbm, ⟨34, _⟩ => ⟨S8x1x64x64, .f32⟩
  | .hbm, ⟨35, _⟩ => ⟨S1x1x64x64, .f32⟩
  | .hbm, ⟨36, _⟩ => ⟨S8x1x64x64, .f32⟩
  | .hbm, ⟨37, _⟩ => ⟨S8x1x64x64, .f32⟩
  | _, _ => ⟨S8x1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S4096x64x64_S1x4096x64x64_1_2_3 : S4096x64x64.BroadcastsInDim S1x4096x64x64 (![1, 2, 3] : Fin 3 → Fin S1x4096x64x64.rank)
  bcast_S8x1x64x64_S8x4096x64x64_0_1_2_3 : S8x1x64x64.BroadcastsInDim S8x4096x64x64 (![0, 1, 2, 3] : Fin 4 → Fin S8x4096x64x64.rank)
  bcast_S1x4096x64x64_S8x4096x64x64_0_1_2_3 : S1x4096x64x64.BroadcastsInDim S8x4096x64x64 (![0, 1, 2, 3] : Fin 4 → Fin S8x4096x64x64.rank)
  reducesTo_S8x4096x64x64_S8x64x64_d1 : S8x4096x64x64.ReducesTo [1] S8x64x64
  h_S_ : 0 < S_.numel
  bcast_S8x64x64_S8x1x64x64_0_2_3 : S8x64x64.BroadcastsInDim S8x1x64x64 (![0, 2, 3] : Fin 3 → Fin S8x1x64x64.rank)
  bcast_S_S1 : S_.BroadcastsInDim S1 (![] : Fin 0 → Fin S1.rank)
  reducesTo_S1x64x64_S_d0_1_2 : S1x64x64.ReducesTo [0, 1, 2] S_
  bcast_S1x64x64_S1x1x64x64_1_2_3 : S1x64x64.BroadcastsInDim S1x1x64x64 (![1, 2, 3] : Fin 3 → Fin S1x1x64x64.rank)
  bcast_S1x1x64x64_S8x1x64x64_0_1_2_3 : S1x1x64x64.BroadcastsInDim S8x1x64x64 (![0, 1, 2, 3] : Fin 4 → Fin S8x1x64x64.rank)

variable [Facts₀]

class Facts : Prop extends Facts₀ where

variable [Facts]
-- ==== Proof.ColumnSum.lean ====
/-
  The mathematics of the affine normalisation step, free of any program.

  For an input x[b, h, w], a mask m[t, h, w], a bias β[h, w] and a weight ω[h, w] the result is
      out[b, h, w] = ((x[b,h,w] + Σ_t x[b,h,w] · m[t,h,w]) − β[h,w]) · ω[h,w].
  A factor that does not depend on t leaves the sum, x · Σ_t m_t = Σ_t x · m_t, when x and every m_t are real
  numbers. On the extended reals this distributive law fails at the infinities, which is why it is stated for
  real entries only. The sum over t may also be taken in consecutive stretches: the sum of the first n + k
  entries of a column is the sum of its first n entries plus the sum of the next k.

  In the flat layout the pair (h, w) is the single column number p = 64 h + w.
-/
import Idealize.ShloMosaic.PureOps.Ideal
import Idealize.ShloMosaic.Lib.ValueIdx
import Idealize.ShloMosaic.Lib.Pipeline.Value

noncomputable section

open scoped BigOperators
open Idealize.ShloMosaic Idealize.ShloMosaic.ValueIdx

namespace Cert.ColumnSum

/-! ## The distributive law over real entries -/

/-- A finite sum of reals, read as an extended real, is the sum of the entries read as extended reals. -/
theorem coe_finsum {ι : Type*} (s : Finset ι) (f : ι → ℝ) :
    ((∑ k ∈ s, f k : ℝ) : EReal) = ∑ k ∈ s, (f k : EReal) := by
  classical
  refine Finset.induction_on s (by simp) ?_
  intro a s ha ih
  rw [Finset.sum_insert ha, Finset.sum_insert ha, EReal.coe_add, ih]

/-- A real factor leaves a finite sum of real entries: x · Σ_k m_k = Σ_k x · m_k. -/
theorem mul_sum_of_real {ι : Type*} [Fintype ι] (x : EReal) (m : ι → EReal)
    (hx : ∃ a : ℝ, x = (a : EReal)) (hm : ∀ k, ∃ μ : ℝ, m k = (μ : EReal)) :
    x * ∑ k, m k = ∑ k, x * m k := by
  obtain ⟨a, rfl⟩ := hx
  choose μ hμ using hm
  obtain rfl : m = fun k => (μ k : EReal) := funext hμ
  rw [← coe_finsum, ← EReal.coe_mul, Finset.mul_sum, coe_finsum]
  exact Finset.sum_congr rfl fun k _ => EReal.coe_mul a (μ k)

/-! ## A column of the flat mask, summed in stretches -/

/-- Entry k of column p of the flat [4096, 4096] mask, the rows counted by natural numbers (zero past the end). -/
def colAt (m2 : (⟨2, ![4096, 4096]⟩ : Shape).Idx → EReal) (p : Fin 4096) (k : ℕ) : EReal :=
  if h : k < 4096 then m2 (ix2 ⟨k, h⟩ p) else 0

/-- The sum of the first n entries of column p. -/
def colPrefix (m2 : (⟨2, ![4096, 4096]⟩ : Shape).Idx → EReal) (p : Fin 4096) (n : ℕ) : EReal :=
  ∑ k ∈ Finset.range n, colAt m2 p k

theorem colPrefix_zero (m2 : (⟨2, ![4096, 4096]⟩ : Shape).Idx → EReal) (p : Fin 4096) : colPrefix m2 p 0 = 0 :=
  Finset.sum_range_zero _

/-- The first n + k entries: the first n, then the next k. -/
theorem colPrefix_add (m2 : (⟨2, ![4096, 4096]⟩ : Shape).Idx → EReal) (p : Fin 4096) (n k : ℕ) :
    colPrefix m2 p (n + k) = colPrefix m2 p n + ∑ r ∈ Finset.range k, colAt m2 p (n + r) :=
  Finset.sum_range_add _ _ _

/-- One more stretch of 1024 entries after the first i stretches. -/
theorem colPrefix_step (m2 : (⟨2, ![4096, 4096]⟩ : Shape).Idx → EReal) (p : Fin 4096) (i : ℕ) :
    colPrefix m2 p ((i + 1) * 1024)
      = colPrefix m2 p (i * 1024) + ∑ r ∈ Finset.range 1024, colAt m2 p (i * 1024 + r) := by
  rw [show (i + 1) * 1024 = i * 1024 + 1024 by omega]
  exact colPrefix_add m2 p _ _

/-- All 4096 entries: the column's sum. -/
theorem colPrefix_full (m2 : (⟨2, ![4096, 4096]⟩ : Shape).Idx → EReal) (p : Fin 4096) :
    colPrefix m2 p 4096 = ∑ t : Fin 4096, m2 (ix2 t p) := by
  unfold colPrefix
  rw [Finset.sum_range]
  exact Finset.sum_congr rfl fun t _ => by unfold colAt; rw [dif_pos t.isLt]

/-- A stretch of 1024 rows starting at row n, given as a function g of the row inside the stretch, sums to the
    corresponding stretch of the column. -/
theorem stretch_sum (m2 : (⟨2, ![4096, 4096]⟩ : Shape).Idx → EReal) (p : Fin 4096) (n : ℕ) (hn : n + 1024 ≤ 4096)
    (g : Fin 1024 → EReal) (hg : ∀ r : Fin 1024, g r = m2 (ix2 ⟨n + r.val, by have := r.isLt; omega⟩ p)) :
    ∑ r : Fin 1024, g r = ∑ r ∈ Finset.range 1024, colAt m2 p (n + r) := by
  rw [Finset.sum_range]
  refine Finset.sum_congr rfl fun r _ => ?_
  rw [hg r]
  unfold colAt
  rw [dif_pos (by have := r.isLt; omega)]

/-! ## The result as a function of the arguments -/

/-- Column number of the pair (h, w) in the flat layout. -/
def col (h w : Fin 64) : Fin 4096 := ⟨64 * h.val + w.val, by have := h.isLt; have := w.isLt; omega⟩

/-! ### The flat layout read at an entry

Flattening keeps the row-major position: entry (b, 0, h, w) of an [8, 1, 64, 64] array is entry (b, 64 h + w) of
the [8, 4096] one, and likewise with the leading axes of the other arrays. -/

section Layout
variable {α : Type}

theorem flatten_input (x : (⟨4, ![8, 1, 64, 64]⟩ : Shape).Idx → α)
    (hc : (⟨4, ![8, 1, 64, 64]⟩ : Shape).ShapeCasts ⟨2, ![8, 4096]⟩) (b : Fin 8) (h w : Fin 64) :
    shapeCast ⟨2, ![8, 4096]⟩ x hc (ix2 b (col h w)) = x (ix4 b (0 : Fin 1) h w) :=
  shapeCast_apply x hc _ _ (by
    rw [Shape.rowMajor_val_four, Shape.rowMajor_val_two]
    show ((b.val * 1 + 0) * 64 + h.val) * 64 + w.val = b.val * 4096 + (64 * h.val + w.val)
    omega)

theorem flatten_plane (x : (⟨3, ![1, 64, 64]⟩ : Shape).Idx → α)
    (hc : (⟨3, ![1, 64, 64]⟩ : Shape).ShapeCasts ⟨2, ![1, 4096]⟩) (h w : Fin 64) :
    shapeCast ⟨2, ![1, 4096]⟩ x hc (ix2 (0 : Fin 1) (col h w)) = x (ix3 (0 : Fin 1) h w) :=
  shapeCast_apply x hc _ _ (by
    rw [Shape.rowMajor_val_three, Shape.rowMajor_val_two]
    show (0 * 64 + h.val) * 64 + w.val = 0 * 4096 + (64 * h.val + w.val)
    omega)

theorem flatten_mask (x : (⟨3, ![4096, 64, 64]⟩ : Shape).Idx → α)
    (hc : (⟨3, ![4096, 64, 64]⟩ : Shape).ShapeCasts ⟨2, ![4096, 4096]⟩) (t : Fin 4096) (h w : Fin 64) :
    shapeCast ⟨2, ![4096, 4096]⟩ x hc (ix2 t (col h w)) = x (ix3 t h w) :=
  shapeCast_apply x hc _ _ (by
    rw [Shape.rowMajor_val_three, Shape.rowMajor_val_two]
    show (t.val * 64 + h.val) * 64 + w.val = t.val * 4096 + (64 * h.val + w.val)
    omega)

theorem unflatten_result (y : (⟨2, ![8, 4096]⟩ : Shape).Idx → α)
    (hc : (⟨2, ![8, 4096]⟩ : Shape).ShapeCasts ⟨4, ![8, 1, 64, 64]⟩) (b : Fin 8) (h w : Fin 64) :
    shapeCast ⟨4, ![8, 1, 64, 64]⟩ y hc (ix4 b (0 : Fin 1) h w) = y (ix2 b (col h w)) :=
  shapeCast_apply y hc _ _ (by
    rw [Shape.rowMajor_val_two, Shape.rowMajor_val_four]
    show b.val * 4096 + (64 * h.val + w.val) = ((b.val * 1 + 0) * 64 + h.val) * 64 + w.val
    omega)

end Layout

/-- An index of an [8, 1, 64, 64] array is (b, 0, h, w): its second coordinate ranges over one value. -/
theorem idx4_eq (i : (⟨4, ![8, 1, 64, 64]⟩ : Shape).Idx) : i = ix4 (i 0) (0 : Fin 1) (i 2) (i 3) := by
  funext a
  match a with
  | ⟨0, _⟩ => rfl
  | ⟨1, _⟩ => exact Fin.ext (Nat.lt_one_iff.mp (i 1).isLt)
  | ⟨2, _⟩ => rfl
  | ⟨3, _⟩ => rfl

/-- The flat result at row b and column p, from the flat arguments: the mask's column sum enters as one factor. -/
def flatAt (x2 : (⟨2, ![8, 4096]⟩ : Shape).Idx → EReal) (w2 b2 : (⟨2, ![1, 4096]⟩ : Shape).Idx → EReal)
    (m2 : (⟨2, ![4096, 4096]⟩ : Shape).Idx → EReal) (b : Fin 8) (p : Fin 4096) : EReal :=
  ((x2 (ix2 b p) + x2 (ix2 b p) * ∑ t : Fin 4096, m2 (ix2 t p)) - b2 (ix2 0 p)) * w2 (ix2 0 p)

/-- The result at (b, h, w), from the arguments in their own layout. -/
def resultAt (x : (⟨4, ![8, 1, 64, 64]⟩ : Shape).Idx → EReal) (wt bs : (⟨3, ![1, 64, 64]⟩ : Shape).Idx → EReal)
    (mk : (⟨3, ![4096, 64, 64]⟩ : Shape).Idx → EReal) (b : Fin 8) (h w : Fin 64) : EReal :=
  ((x (ix4 b 0 h w) + x (ix4 b 0 h w) * ∑ t : Fin 4096, mk (ix3 t h w)) - bs (ix3 0 h w)) * wt (ix3 0 h w)

/-- The whole result array. -/
def result (x : (⟨4, ![8, 1, 64, 64]⟩ : Shape).Idx → EReal) (wt bs : (⟨3, ![1, 64, 64]⟩ : Shape).Idx → EReal)
    (mk : (⟨3, ![4096, 64, 64]⟩ : Shape).Idx → EReal) : (⟨4, ![8, 1, 64, 64]⟩ : Shape).Idx → EReal :=
  fun i => resultAt x wt bs mk (i 0) (i 2) (i 3)

/-- With real input and mask entries, the sum of the products is the product with the column's sum: the
    reference's form of the result at (b, h, w) is `resultAt`. -/
theorem sum_form_eq (x : (⟨4, ![8, 1, 64, 64]⟩ : Shape).Idx → EReal) (wt bs : (⟨3, ![1, 64, 64]⟩ : Shape).Idx → EReal)
    (mk : (⟨3, ![4096, 64, 64]⟩ : Shape).Idx → EReal)
    (hx : ∀ i, ∃ a : ℝ, x i = (a : EReal)) (hm : ∀ i, ∃ μ : ℝ, mk i = (μ : EReal)) (b : Fin 8) (h w : Fin 64) :
    ((x (ix4 b 0 h w) + (0 + ∑ t : Fin 4096, x (ix4 b 0 h w) * mk (ix3 t h w))) - bs (ix3 0 h w)) * wt (ix3 0 h w)
      = resultAt x wt bs mk b h w := by
  unfold resultAt
  rw [zero_add, mul_sum_of_real (x (ix4 b 0 h w)) (fun t : Fin 4096 => mk (ix3 t h w)) (hx _) (fun t => hm _)]

end Cert.ColumnSum

end
-- ==== Proof.ReferenceSum.lean ====
/-
  The reference computes the specification.

  Read one operation at a time, the reference's first result at (b, 0, h, w) is
      ((x[b,0,h,w] + (0 + Σ_t x[b,0,h,w] · m[t,h,w])) − β[0,h,w]) · ω[0,h,w]:
  the input is broadcast along the summed axis, so the same x[b,0,h,w] stands in every term of the sum, and the
  mask, the bias and the weight are broadcast along the batch axis. With real input and mask entries the factor
  leaves the sum, which gives the specification's form.
-/
import proofs.«426860_j11811160064499_3_alg».proof.Proof.Gen.ReferenceIdeal.Read
import proofs.«426860_j11811160064499_3_alg».proof.Proof.ColumnSum
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Read

/-- The reference's first result is the specification's result array, for real input and mask entries. -/
theorem first_result (x0 : (⟨S8x1x64x64, .f32⟩ : BufTy).Contents (Elt Ideal))
    (x2 x3 : (⟨S1x64x64, .f32⟩ : BufTy).Contents (Elt Ideal)) (x4 : (⟨S4096x64x64, .f32⟩ : BufTy).Contents (Elt Ideal))
    (hx : ∀ i, ∃ a : ℝ, x0 i = (a : EReal)) (hm : ∀ i, ∃ μ : ℝ, x4 i = (μ : EReal)) :
    val_main_v25 (F := Ideal) x0 x2 x3 x4 = Cert.ColumnSum.result x0 x2 x3 x4 := by
  funext i
  obtain ⟨b, h, w, rfl⟩ : ∃ (b : Fin 8) (h w : Fin 64), i = ix4 b (0 : Fin 1) h w := ⟨i 0, i 2, i 3, Cert.ColumnSum.idx4_eq i⟩
  have e1 : ∀ k : Fin 4096, idx_main_v1 (idx_main_v4 (idx_main_v5 (ix4 b (0 : Fin 1) h w)) k) = ix4 b (0 : Fin 1) h w :=
    fun k => funext fun a => by match a with | ⟨0, _⟩ => rfl | ⟨1, _⟩ => rfl | ⟨2, _⟩ => rfl | ⟨3, _⟩ => rfl
  have e2 : ∀ k : Fin 4096, idx_main_v0 (idx_main_v2 (idx_main_v4 (idx_main_v5 (ix4 b (0 : Fin 1) h w)) k)) = ix3 k h w :=
    fun k => funext fun a => by match a with | ⟨0, _⟩ => rfl | ⟨1, _⟩ => rfl | ⟨2, _⟩ => rfl
  have e3 : idx_main_v23 (idx_main_v24 (ix4 b (0 : Fin 1) h w)) = ix3 (0 : Fin 1) h w :=
    funext fun a => by match a with | ⟨0, _⟩ => rfl | ⟨1, _⟩ => rfl | ⟨2, _⟩ => rfl
  have e4 : idx_main_v20 (idx_main_v21 (ix4 b (0 : Fin 1) h w)) = ix3 (0 : Fin 1) h w :=
    funext fun a => by match a with | ⟨0, _⟩ => rfl | ⟨1, _⟩ => rfl | ⟨2, _⟩ => rfl
  rw [val_main_v25_apply, val_main_v22_apply, val_main_v6_apply, val_main_v5_apply, val_main_v4_apply,
    val_main_v24_apply, val_main_v23_apply, val_main_v21_apply, val_main_v20_apply]
  simp only [val_main_v3_apply, val_main_v1_apply, val_main_v2_apply, val_main_v0_apply, val_main_cst_apply,
    e1, e2, e3, e4, Ideal.mulf_def, Ideal.addf_def, Ideal.subf_def, Ideal.ofBits_def, Ideal.ofBits_zero_f32]
  exact Cert.ColumnSum.sum_form_eq x0 x2 x3 x4 hx hm b h w

end Cert.ReferenceIdeal.RefValue

end
-- ==== Proof.BodyValue.lean ====
/-
  The kernel body's three stored values, read at one entry over the extended reals.

  The body keeps a [1, 2048] row of running column sums. It stores a zero row at the first step of a column
  block; at every step it adds, lane by lane, the sum over the 1024 rows of the current [1024, 2048] mask block;
  and at the last step it forms ((x + x · s) − β) · ω from the finished row s, broadcast over the 8 batch rows,
  and the blocks of the input x, the bias β and the weight ω.
-/
import proofs.«426860_j11811160064499_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.BodyValue

open Cert.KernelIdeal Cert.KernelIdeal.Gen

/-- The reset row is zero everywhere. -/
theorem reset_at (l : Fin 2048) : (k0_pay1 (F := Ideal)) (ix2 (0 : Fin 1) l) = 0 := by
  unfold k0_pay1
  simp only [shapeCast_self]
  exact Ideal.ofBits_zero_f32

/-- The sum over the rows of a [1024, 2048] block, at lane l, is the sum of the block's column l. -/
theorem rowsum_at (v : FVec Ideal S1024x2048 .f32) (h : S1024x2048.Reduces [0] S2048) (hφ : FKind.Formats .f32)
    (hacc : (0x00000000#32 : BitVec 32) = 0x00000000#32) (l : Fin 2048) :
    multiReduction .add [0] S2048 v 0x00000000#32 h hφ hacc (ix1 l) = ∑ r : Fin 1024, v (ix2 r l) := by
  refine (Ideal.multiReduction_add_single v 0x00000000#32 h hφ hacc (ix1 l)).trans ?_
  exact Finset.sum_congr rfl fun r _ => congrArg v (funext fun a => Fin.ext (by
    match a with
    | ⟨0, _⟩ => rfl
    | ⟨1, _⟩ => rfl))

/-- One accumulation step: the row before, plus the current block's column sums. -/
theorem step_at (acc : FVec Ideal S1x2048 .f32) (blk : FVec Ideal S1024x2048 .f32) (l : Fin 2048) :
    k0_pay2 acc blk (ix2 (0 : Fin 1) l) = acc (ix2 (0 : Fin 1) l) + ∑ r : Fin 1024, blk (ix2 r l) := by
  unfold k0_pay2
  simp only [shapeCast_self]
  refine congrArg (acc (ix2 (0 : Fin 1) l) + ·) ?_
  refine (shapeCast_a_1a_apply _ _ (0 : Fin 1) l).trans ?_
  exact rowsum_at blk _ _ _ l

/-- The last step's stored block at (b, l): ((x + x · s) − β) · ω with the row s, β and ω read at lane l. -/
theorem affine_at (s : FVec Ideal S1x2048 .f32) (x : FVec Ideal S8x2048 .f32) (bias wt : FVec Ideal S1x2048 .f32)
    (b : Fin 8) (l : Fin 2048) :
    k0_pay3 s x bias wt (ix2 b l)
      = ((x (ix2 b l) + x (ix2 b l) * s (ix2 (0 : Fin 1) l)) - bias (ix2 (0 : Fin 1) l)) * wt (ix2 (0 : Fin 1) l) := by
  unfold k0_pay3
  simp only [shapeCast_self]
  show ((x (ix2 b l) + x (ix2 b l) * broadcastTo S8x2048 s _ (ix2 b l)) - broadcastTo S8x2048 bias _ (ix2 b l))
      * broadcastTo S8x2048 wt _ (ix2 b l) = _
  rw [broadcastTo_1b_ab_apply s, broadcastTo_1b_ab_apply bias, broadcastTo_1b_ab_apply wt]

end Cert.KernelIdeal.BodyValue

end
-- ==== Proof.Stored.lean ====
/-
  What each control case of the body leaves behind, as the body's stored values.

  The body meets three cases along a column block's four steps. At the first step it stores the zero row into
  the carried row and then the first accumulation over it; at the two middle steps it stores one accumulation
  over the row the step before left; at the last step it stores that accumulation and then, from the row it has
  just stored, the output block. Each store covers its whole buffer, so what a buffer holds afterwards is the
  last value stored into it, with every load read back as the value it loaded.
-/
import proofs.«426860_j11811160064499_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.Stored

open Cert.KernelIdeal Cert.KernelIdeal.Gen

variable {F : FTy → Type} [FloatOps F]

theorem hz : (![0, 0] : Fin 2 → Nat) = fun _ => 0 := funext fun a => by fin_cases a <;> rfl

/-- First step: the carried row ends at one accumulation over the zero row. -/
theorem row_first (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S8x2048 .f32) (harg6 : arg6.IsWhole) (arg7 : Memref sig .tc .vmem S1x2048 .f32) (harg7 : arg7.IsWhole) (hc0 : cond0_0 i) (hc1 : ¬cond0_1 i)
    (x0 : Vec F S1024x2048 .f32) (x1 : Vec F S8x2048 .f32) (x2 : Vec F S1x2048 .f32) (x3 : Vec F S1x2048 .f32) :
    sout0_A_0 c i arg2 harg2 arg3 harg3 arg4 harg4 arg5 harg5 arg6 harg6 arg7 harg7 hc0 hc1 x0 x1 x2 x3 = k0_pay2 (k0_pay1 (F := F)) x0 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x2048) hz, View.readCov_unit_zero (S := S1x2048) _ hz]
  simp only [View.readAt_eq_ld, harg2.read_unread, View.ld_unit_zero (S := S1024x2048) hz]

/-- Middle steps: the carried row ends at one accumulation over what the step before left. -/
theorem row_middle (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S8x2048 .f32) (harg6 : arg6.IsWhole) (arg7 : Memref sig .tc .vmem S1x2048 .f32) (harg7 : arg7.IsWhole) (hc0 : ¬cond0_0 i) (hc1 : ¬cond0_1 i)
    (x0 : Vec F S1024x2048 .f32) (x1 : Vec F S8x2048 .f32) (x2 : Vec F S1x2048 .f32) (x3 : Vec F S1x2048 .f32) (xs0 : Vec F S1x2048 .f32) :
    sout0_B_0 c i arg2 harg2 arg3 harg3 arg4 harg4 arg5 harg5 arg6 harg6 arg7 harg7 hc0 hc1 x0 x1 x2 x3 xs0 = k0_pay2 xs0 x0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg7.read_unread, View.ld_unit_zero (S := S1024x2048) hz,
    View.ld_unit_zero (S := S1x2048) hz]

/-- Last step: the carried row likewise, -/
theorem row_last (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S8x2048 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S8x2048 .f32) (x2 : Vec F S1x2048 .f32) (x3 : Vec F S1x2048 .f32) (xs0 : Vec F S1x2048 .f32) :
    sout0_C_0 c i arg2 harg2 arg3 harg3 arg4 harg4 arg5 harg5 arg6 harg6 arg7 harg7 hc0 hc1 x0 x1 x2 x3 xs0 = k0_pay2 xs0 x0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg7.read_unread, View.ld_unit_zero (S := S1024x2048) hz,
    View.ld_unit_zero (S := S1x2048) hz]

/-- and the output block ends at the affine value formed from the row just stored. -/
theorem block_last (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S8x2048 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S8x2048 .f32) (x2 : Vec F S1x2048 .f32) (x3 : Vec F S1x2048 .f32) (xs0 : Vec F S1x2048 .f32) :
    out0_C_4 c i arg2 harg2 arg3 harg3 arg4 harg4 arg5 harg5 arg6 harg6 arg7 harg7 hc0 hc1 x0 x1 x2 x3 xs0 = k0_pay3 (k0_pay2 xs0 x0) x1 x3 x2 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread,
    harg7.read_unread, View.ld_unit_zero (S := S1024x2048) hz, View.ld_unit_zero (S := S8x2048) hz,
    View.ld_unit_zero (S := S1x2048) hz, View.readCov_unit_zero (S := S1x2048) _ hz]

end Cert.KernelIdeal.Stored

end
-- ==== Proof.Row.lean ====
/-
  The carried row along the grid.

  The grid has 8 points, point t = 4 j + i being step i of column block j. The mask's block at t is rows
  1024 i … 1024 i + 1023 and columns 2048 j … 2048 j + 2047 of the flat mask; the input's, weight's and bias's
  blocks at t are columns 2048 j … of their flat arrays. After point t the carried row holds, at lane l, the sum
  of the first 1024 (i + 1) entries of column 2048 j + l of the flat mask: the first step of a block starts the
  sum from zero, every later step adds the next stretch of 1024 rows to what the step before left. After the
  last step (i = 3) it is the whole column's sum.
-/
import proofs.«426860_j11811160064499_3_alg».proof.Proof.Gen.KernelIdeal.Frame
import proofs.«426860_j11811160064499_3_alg».proof.Proof.ColumnSum
import proofs.«426860_j11811160064499_3_alg».proof.Proof.BodyValue
import proofs.«426860_j11811160064499_3_alg».proof.Proof.Stored
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Row

open Cert.KernelIdeal Cert.KernelIdeal.Gen Cert.ColumnSum

/-! ## What each point leaves, as the body's stored values (any float instance) -/

section AnyInstance
variable {F : FTy → Type} [FloatOps F]
variable (m : (ℓ : Loc nD τ sig) → Buf (Elt F) ℓ)

/-- A first step leaves one accumulation over the zero row. -/
theorem row_first_at (c : Dev nD) (t : Fin cfg0.N) (h0 : t.val % 4 = 0) (h1 : ¬t.val % 4 = 3) :
    (outsAt0 m c t.val t.isLt).2 = k0_pay2 (k0_pay1 (F := F)) (iblk m c 0 t) := by
  rw [outsAt0_A m c t h0 h1]
  dsimp only
  exact Stored.row_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- A middle step leaves one accumulation over what the point before left. -/
theorem row_middle_at (c : Dev nD) (t : Fin cfg0.N) (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) := by
  rw [outsAt0_B m c t h0 h1]
  dsimp only
  exact Stored.row_middle c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- A last step likewise, -/
theorem row_last_at (c : Dev nD) (t : Fin cfg0.N) (h0 : ¬t.val % 4 = 0) (h1 : t.val % 4 = 3) :
    (outsAt0 m c t.val t.isLt).2 = k0_pay2 (outsAt0 m c (t.val - 1) (Nat.lt_of_le_of_lt (Nat.sub_le _ _) t.isLt)).2 (iblk m c 0 t) := by
  rw [outsAt0_C m c t h0 h1]
  dsimp only
  exact Stored.row_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- and its output block is the affine value formed from the row it has just stored. -/
theorem block_last_at (c : Dev nD) (t : Fin cfg0.N) (h0 : ¬t.val % 4 = 0) (h1 : t.val % 4 = 3) :
    (outsAt0 m c t.val t.isLt).1
      = k0_pay3 (k0_pay2 (outsAt0 m c (t.val - 1) (Nat.lt_of_le_of_lt (Nat.sub_le _ _) t.isLt)).2 (iblk m c 0 t)) (iblk m c 1 t) (iblk m c 3 t) (iblk m c 2 t) := by
  rw [outsAt0_C m c t h0 h1]
  dsimp only
  exact Stored.block_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

end AnyInstance

/-! ## Over the extended reals -/

variable (m : (ℓ : Loc nD τ sig) → Buf (Elt Ideal) ℓ)

/-- The flat arrays as the region finds them, and the blocks and the carried row, each at its literal shape. -/
abbrev maskArr (c : Dev nD) : FVec Ideal S4096x4096 .f32 := V m c main_v0
abbrev inArr (c : Dev nD) : FVec Ideal S8x4096 .f32 := V m c main_v1
abbrev wtArr (c : Dev nD) : FVec Ideal S1x4096 .f32 := V m c main_v2
abbrev bsArr (c : Dev nD) : FVec Ideal S1x4096 .f32 := V m c main_v3
abbrev maskBlk (c : Dev nD) (t : Fin cfg0.N) : FVec Ideal S1024x2048 .f32 := iblk m c 0 t
abbrev inBlk (c : Dev nD) (t : Fin cfg0.N) : FVec Ideal S8x2048 .f32 := iblk m c 1 t
abbrev wtBlk (c : Dev nD) (t : Fin cfg0.N) : FVec Ideal S1x2048 .f32 := iblk m c 2 t
abbrev bsBlk (c : Dev nD) (t : Fin cfg0.N) : FVec Ideal S1x2048 .f32 := iblk m c 3 t
abbrev rowAt (c : Dev nD) (n : ℕ) (hn : n < cfg0.N) : FVec Ideal S1x2048 .f32 := (outsAt0 m c n hn).2

/-! ### The block indices, decided over the grid -/

theorem index_mask : ∀ t : Fin cfg0.N, win0_0.index t (0 : Fin 2) = t.val % 4 ∧ win0_0.index t (1 : Fin 2) = t.val / 4 :=
  (by decide +kernel : ∀ t : Fin grid0.N, win0_0.index t (0 : Fin 2) = t.val % 4 ∧ win0_0.index t (1 : Fin 2) = t.val / 4)
theorem index_in : ∀ t : Fin cfg0.N, win0_1.index t (0 : Fin 2) = 0 ∧ win0_1.index t (1 : Fin 2) = t.val / 4 :=
  (by decide +kernel : ∀ t : Fin grid0.N, win0_1.index t (0 : Fin 2) = 0 ∧ win0_1.index t (1 : Fin 2) = t.val / 4)
theorem index_wt : ∀ t : Fin cfg0.N, win0_2.index t (0 : Fin 2) = 0 ∧ win0_2.index t (1 : Fin 2) = t.val / 4 :=
  (by decide +kernel : ∀ t : Fin grid0.N, win0_2.index t (0 : Fin 2) = 0 ∧ win0_2.index t (1 : Fin 2) = t.val / 4)
theorem index_bs : ∀ t : Fin cfg0.N, win0_3.index t (0 : Fin 2) = 0 ∧ win0_3.index t (1 : Fin 2) = t.val / 4 :=
  (by decide +kernel : ∀ t : Fin grid0.N, win0_3.index t (0 : Fin 2) = 0 ∧ win0_3.index t (1 : Fin 2) = t.val / 4)
theorem index_out : ∀ t : Fin cfg0.N, win0_4.index t (0 : Fin 2) = 0 ∧ win0_4.index t (1 : Fin 2) = t.val / 4 :=
  (by decide +kernel : ∀ t : Fin grid0.N, win0_4.index t (0 : Fin 2) = 0 ∧ win0_4.index t (1 : Fin 2) = t.val / 4)

/-! ### The blocks read off the flat arrays -/

/-- Entry (r, l) of the mask's block at t is entry (1024 i + r, 2048 j + l) of the flat mask. -/
theorem maskBlk_at (c : Dev nD) (t : Fin cfg0.N) (r : Fin 1024) (l : Fin 2048) (R P : Fin 4096)
    (hR : R.val = (t.val % 4) * 1024 + r.val) (hP : P.val = (t.val / 4) * 2048 + l.val) :
    maskBlk m c t (ix2 r l) = maskArr m c (ix2 R P) := by
  obtain ⟨e0, e1⟩ := index_mask t
  show V m c main_v0 (((cfg0.win 0).blk t).view.emb (ix2 r l)) = V m c main_v0 (ix2 R P)
  refine congrArg (V m c main_v0) (funext fun a => Fin.ext ?_)
  match a with
  | ⟨0, _⟩ => show win0_0.index t (0 : Fin 2) * 1024 + 1 * r.val = R.val; omega
  | ⟨1, _⟩ => show win0_0.index t (1 : Fin 2) * 2048 + 1 * l.val = P.val; omega

/-- Entry (b, l) of the input's block at t is entry (b, 2048 j + l) of the flat input. -/
theorem inBlk_at (c : Dev nD) (t : Fin cfg0.N) (b : Fin 8) (l : Fin 2048) (P : Fin 4096)
    (hP : P.val = (t.val / 4) * 2048 + l.val) : inBlk m c t (ix2 b l) = inArr m c (ix2 b P) := by
  obtain ⟨e0, e1⟩ := index_in t
  show V m c main_v1 (((cfg0.win 1).blk t).view.emb (ix2 b l)) = V m c main_v1 (ix2 b P)
  refine congrArg (V m c main_v1) (funext fun a => Fin.ext ?_)
  match a with
  | ⟨0, _⟩ => show win0_1.index t (0 : Fin 2) * 8 + 1 * b.val = b.val; omega
  | ⟨1, _⟩ => show win0_1.index t (1 : Fin 2) * 2048 + 1 * l.val = P.val; omega

/-- Entry (0, l) of the weight's block at t is entry (0, 2048 j + l) of the flat weight. -/
theorem wtBlk_at (c : Dev nD) (t : Fin cfg0.N) (l : Fin 2048) (P : Fin 4096)
    (hP : P.val = (t.val / 4) * 2048 + l.val) : wtBlk m c t (ix2 (0 : Fin 1) l) = wtArr m c (ix2 (0 : Fin 1) P) := by
  obtain ⟨e0, e1⟩ := index_wt t
  show V m c main_v2 (((cfg0.win 2).blk t).view.emb (ix2 (0 : Fin 1) l)) = V m c main_v2 (ix2 (0 : Fin 1) P)
  refine congrArg (V m c main_v2) (funext fun a => Fin.ext ?_)
  match a with
  | ⟨0, _⟩ => show win0_2.index t (0 : Fin 2) * 1 + 1 * 0 = 0; omega
  | ⟨1, _⟩ => show win0_2.index t (1 : Fin 2) * 2048 + 1 * l.val = P.val; omega

/-- Entry (0, l) of the bias's block at t is entry (0, 2048 j + l) of the flat bias. -/
theorem bsBlk_at (c : Dev nD) (t : Fin cfg0.N) (l : Fin 2048) (P : Fin 4096)
    (hP : P.val = (t.val / 4) * 2048 + l.val) : bsBlk m c t (ix2 (0 : Fin 1) l) = bsArr m c (ix2 (0 : Fin 1) P) := by
  obtain ⟨e0, e1⟩ := index_bs t
  show V m c main_v3 (((cfg0.win 3).blk t).view.emb (ix2 (0 : Fin 1) l)) = V m c main_v3 (ix2 (0 : Fin 1) P)
  refine congrArg (V m c main_v3) (funext fun a => Fin.ext ?_)
  match a with
  | ⟨0, _⟩ => show win0_3.index t (0 : Fin 2) * 1 + 1 * 0 = 0; omega
  | ⟨1, _⟩ => show win0_3.index t (1 : Fin 2) * 2048 + 1 * l.val = P.val; omega

/-- The column sums of the mask's block at t are the stretch of rows 1024 i … of the flat mask's column. -/
theorem maskBlk_colsum (c : Dev nD) (t : Fin cfg0.N) (l : Fin 2048) (P : Fin 4096)
    (hP : P.val = (t.val / 4) * 2048 + l.val) :
    ∑ r : Fin 1024, maskBlk m c t (ix2 r l)
      = ∑ r ∈ Finset.range 1024, colAt (maskArr m c) P ((t.val % 4) * 1024 + r) :=
  stretch_sum (maskArr m c) P ((t.val % 4) * 1024) (by omega) (fun r => maskBlk m c t (ix2 r l))
    (fun r => maskBlk_at m c t r l ⟨(t.val % 4) * 1024 + r.val, by have := r.isLt; omega⟩ P rfl hP)

/-! ### The carried row is a prefix sum of the column -/

/-- At a first step the sum starts from zero. -/
theorem first_row (c : Dev nD) (t : Fin cfg0.N) (h0 : t.val % 4 = 0) (l : Fin 2048) (P : Fin 4096)
    (hP : P.val = (t.val / 4) * 2048 + l.val) :
    rowAt m c t.val t.isLt (ix2 (0 : Fin 1) l) = colPrefix (maskArr m c) P ((t.val % 4 + 1) * 1024) := by
  have h1 : ¬t.val % 4 = 3 := by omega
  rw [show rowAt m c t.val t.isLt = k0_pay2 (k0_pay1 (F := Ideal)) (maskBlk m c t) from row_first_at m c t h0 h1,
    BodyValue.step_at (k0_pay1 (F := Ideal)) (maskBlk m c t) l, BodyValue.reset_at l, zero_add,
    maskBlk_colsum m c t l P hP, colPrefix_step, h0, Nat.zero_mul, colPrefix_zero, zero_add]

/-- At a later step the next stretch is added to what the point before left. -/
theorem next_row (c : Dev nD) (t : Fin cfg0.N) (h0 : ¬t.val % 4 = 0) (l : Fin 2048) (P : Fin 4096)
    (hP : P.val = (t.val / 4) * 2048 + l.val)
    (ih : rowAt m c (t.val - 1) (Nat.lt_of_le_of_lt (Nat.sub_le _ _) t.isLt) (ix2 (0 : Fin 1) l)
      = colPrefix (maskArr m c) P (((t.val - 1) % 4 + 1) * 1024)) :
    rowAt m c t.val t.isLt (ix2 (0 : Fin 1) l) = colPrefix (maskArr m c) P ((t.val % 4 + 1) * 1024) := by
  have e : rowAt m c t.val t.isLt
      = k0_pay2 (rowAt m c (t.val - 1) (Nat.lt_of_le_of_lt (Nat.sub_le _ _) t.isLt)) (maskBlk m c t) := by
    by_cases h1 : t.val % 4 = 3
    · exact row_last_at m c t h0 h1
    · exact row_middle_at m c t h0 h1
  rw [e, BodyValue.step_at (rowAt m c (t.val - 1) (Nat.lt_of_le_of_lt (Nat.sub_le _ _) t.isLt)) (maskBlk m c t) l, ih,
    show (t.val - 1) % 4 + 1 = t.val % 4 by omega, maskBlk_colsum m c t l P hP, colPrefix_step]

/-- After point n the carried row holds, at lane l, the first 1024 (i + 1) entries' sum of column 2048 j + l. -/
theorem row_eq (c : Dev nD) : ∀ (n : ℕ) (hn : n < cfg0.N) (l : Fin 2048) (P : Fin 4096), P.val = (n / 4) * 2048 + l.val →
    rowAt m c n hn (ix2 (0 : Fin 1) l) = colPrefix (maskArr m c) P ((n % 4 + 1) * 1024)
  | 0, hn, l, P, hP => first_row m c ⟨0, hn⟩ rfl l P hP
  | n + 1, hn, l, P, hP => by
    by_cases h0 : (n + 1) % 4 = 0
    · exact first_row m c ⟨n + 1, hn⟩ h0 l P hP
    · exact next_row m c ⟨n + 1, hn⟩ h0 l P hP
        (row_eq c n (Nat.lt_of_succ_lt hn) l P (by rw [hP, show (n + 1) / 4 = n / 4 by omega]))

end Cert.KernelIdeal.Row

end
-- ==== Proof.KernelValue.lean ====
/-
  The kernel's two results.

  At a last step the output block written back at point t = 4 j + 3 is, at (b, l), the affine value formed from
  the finished row, which by then is the whole column sum: entry (b, 2048 j + l) of
      flat[b, p] = ((x2[b,p] + x2[b,p] · Σ_t m2[t,p]) − β2[0,p]) · ω2[0,p].
  The two last steps' blocks are the two halves of the [8, 4096] array, so the array ends at `flat`. The lines
  after the region reshape it to [8, 1, 64, 64]; read through the flattening p = 64 h + w of all four arguments
  it is the specification's result. The second result is a chain of host operations of the first and the third
  argument only.
-/
import proofs.«426860_j11811160064499_3_alg».proof.Proof.Row
import Idealize.ShloMosaic.Lib.StableHlo.Run

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Value

open Cert.KernelIdeal Cert.KernelIdeal.Gen Cert.KernelIdeal.Row Cert.ColumnSum

variable (m : (ℓ : Loc nD τ sig) → Buf (Elt Ideal) ℓ) (ρ : Dev nD → PrngReg)

/-! ## The flat output array -/

/-- The flat result from the flat arrays as the region finds them. -/
abbrev flat (c : Dev nD) : FVec Ideal S8x4096 .f32 :=
  fun j => flatAt (inArr m c) (wtArr m c) (bsArr m c) (maskArr m c) (j 0) (j 1)

/-- What a last step writes back is its block of `flat`. -/
theorem flushed_eq (c : Dev nD) (t : Fin cfg0.N) (hf : (cfg0.win 4).flush t = true) :
    (dats m 0 c).flushed 4 t = ((cfg0.win 4).blk t).view.read (Elt Ideal) (flat m c) := by
  have h3 : t.val % 4 = 3 := (flush0_4 t).mp hf
  have h0 : ¬t.val % 4 = 0 := by omega
  have hN : t.val < 8 := lt_of_lt_of_eq t.isLt (show cfg0.N = 8 from N_0)
  obtain ⟨e0, e1⟩ := index_out t
  show (cfg0.win 4).cut (grid0.coords t) ((dats m 0 c).after 4 t) = _
  rw [after0_4, block_last_at m c t h0 h3, ← row_last_at m c t h0 h3]
  funext j
  obtain ⟨b, l, rfl⟩ : ∃ (b : Fin 8) (l : Fin 2048), j = ix2 b l := ⟨j 0, j 1, eq_ix2 j⟩
  obtain ⟨P, hP⟩ : ∃ P : Fin 4096, P.val = (t.val / 4) * 2048 + l.val := ⟨⟨(t.val / 4) * 2048 + l.val, by omega⟩, rfl⟩
  have hemb : ((cfg0.win 4).blk t).view.emb (ix2 b l) = ix2 b P := funext fun a => Fin.ext (by
    match a with
    | ⟨0, _⟩ => show win0_4.index t (0 : Fin 2) * 8 + 1 * b.val = b.val; omega
    | ⟨1, _⟩ => show win0_4.index t (1 : Fin 2) * 2048 + 1 * l.val = P.val; omega)
  show k0_pay3 (rowAt m c t.val t.isLt) (inBlk m c t) (bsBlk m c t) (wtBlk m c t) (ix2 b l)
    = flat m c (((cfg0.win 4).blk t).view.emb (ix2 b l))
  rw [hemb, BodyValue.affine_at (rowAt m c t.val t.isLt) (inBlk m c t) (bsBlk m c t) (wtBlk m c t) b l,
    row_eq m c t.val t.isLt l P hP, h3, show (3 + 1) * 1024 = 4096 from rfl, colPrefix_full,
    inBlk_at m c t b l P hP, wtBlk_at m c t l P hP, bsBlk_at m c t l P hP]
  rfl

/-- An index of the array is in point t's block iff each coordinate is in the block's range on its axis. -/
theorem mem_blk (t : Fin cfg0.N) (i : S8x4096.Idx) :
    i ∈ ((cfg0.win 4).blk t).view.set ↔ ∀ a : Fin 2, win0_4.index t a * S8x2048.size a ≤ (i a).val
      ∧ (i a).val < win0_4.index t a * S8x2048.size a + S8x2048.size a := by
  show i ∈ ((View.whole main_v4).slice (win0_4.rect t)).set ↔ _
  rw [View.set_slice_whole, Rect.mem_set_unit]
  exact Iff.rfl

/-- The array ends at `flat`: column p lies in the block written back at the last step of column block p / 2048. -/
theorem final_flat (c : Dev nD) : (dats m 0 c).arrAt 4 cfg0.N = flat m c :=
  (dats m 0 c).arrAt_eq_of_cover 4 (flat m c) (flushed_eq m c) fun i => by
    have hN : cfg0.N = 8 := N_0
    have hi0 : (i 0).val < 8 := (i 0).isLt
    have hi1 : (i 1).val < 4096 := (i 1).isLt
    have ht : 4 * ((i 1).val / 2048) + 3 < cfg0.N := by rw [hN]; omega
    obtain ⟨e0, e1⟩ := index_out ⟨4 * ((i 1).val / 2048) + 3, ht⟩
    have e1' : win0_4.index ⟨4 * ((i 1).val / 2048) + 3, ht⟩ (1 : Fin 2) = (i 1).val / 2048 := by
      rw [e1]; show (4 * ((i 1).val / 2048) + 3) / 4 = _; omega
    refine ⟨⟨4 * ((i 1).val / 2048) + 3, ht⟩, (flush0_4 _).mpr (by show (4 * ((i 1).val / 2048) + 3) % 4 = 3; omega), ?_⟩
    rw [mem_blk]
    intro a
    match a with
    | ⟨0, _⟩ =>
      show win0_4.index ⟨4 * ((i 1).val / 2048) + 3, ht⟩ (0 : Fin 2) * 8 ≤ (i 0).val
        ∧ (i 0).val < win0_4.index ⟨4 * ((i 1).val / 2048) + 3, ht⟩ (0 : Fin 2) * 8 + 8
      rw [e0]; omega
    | ⟨1, _⟩ =>
      show win0_4.index ⟨4 * ((i 1).val / 2048) + 3, ht⟩ (1 : Fin 2) * 2048 ≤ (i 1).val
        ∧ (i 1).val < win0_4.index ⟨4 * ((i 1).val / 2048) + 3, ht⟩ (1 : Fin 2) * 2048 + 2048
      rw [e1']; omega

/-! ## The flat arrays are the arguments, flattened -/

theorem maskArr_eq (c : Dev nD) :
    maskArr m c = shapeCast S4096x4096 (m ((c : Thread nD τ).loc main_arg4)) shapeCasts_S4096x64x64_S4096x4096 := by
  show StableHlo.after hostOps0 (fun b => m (c, b)) (Proc.devRef .tc main_v0) = _
  after_results
  rfl
theorem inArr_eq (c : Dev nD) :
    inArr m c = shapeCast S8x4096 (m ((c : Thread nD τ).loc main_arg0)) shapeCasts_S8x1x64x64_S8x4096 := by
  show StableHlo.after hostOps0 (fun b => m (c, b)) (Proc.devRef .tc main_v1) = _
  after_results
  rfl
theorem wtArr_eq (c : Dev nD) :
    wtArr m c = shapeCast S1x4096 (m ((c : Thread nD τ).loc main_arg2)) shapeCasts_S1x64x64_S1x4096 := by
  show StableHlo.after hostOps0 (fun b => m (c, b)) (Proc.devRef .tc main_v2) = _
  after_results
  rfl
theorem bsArr_eq (c : Dev nD) :
    bsArr m c = shapeCast S1x4096 (m ((c : Thread nD τ).loc main_arg3)) shapeCasts_S1x64x64_S1x4096 := by
  show StableHlo.after hostOps0 (fun b => m (c, b)) (Proc.devRef .tc main_v3) = _
  after_results
  rfl

/-- `flat` at (b, 64 h + w) is the specification's result at (b, h, w). -/
theorem flat_col (c : Dev nD) (b : Fin 8) (h w : Fin 64) :
    flat m c (ix2 b (col h w))
      = resultAt (m ((c : Thread nD τ).loc main_arg0)) (m ((c : Thread nD τ).loc main_arg2))
          (m ((c : Thread nD τ).loc main_arg3)) (m ((c : Thread nD τ).loc main_arg4)) b h w := by
  show flatAt (inArr m c) (wtArr m c) (bsArr m c) (maskArr m c) b (col h w) = _
  unfold flatAt resultAt
  rw [inArr_eq, wtArr_eq, bsArr_eq, maskArr_eq, flatten_input, flatten_plane, flatten_plane]
  simp only [flatten_mask]

/-! ## The two results -/

/-- The array the region leaves, seen by the lines after it. -/
theorem tail_flat (c : Dev nD) :
    Pipeline.withArrays (cfgs 0).spec c (V0 m c) (fun w => (dats m 0 c).arrAt w (cfgs 0).N) (Proc.devRef .tc main_v4) = flat m c :=
  (Pipeline.withArrays_arr spec0 launch0.win.arr_inj c _ _ 4).trans (final_flat m c)

/-- An argument no window stages, seen by the lines after the region: as launched. -/
theorem tail_arg1 (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans
    (V_main_arg1 m c)
theorem tail_arg2 (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

/-- The first result: the specification's result array of the four arguments it depends on. -/
theorem first_result (c : Dev nD) :
    Pipeline.afterTail₀ cfgs (dats m) 0 (V0 m) [hostOps1] c main_v5
      = result (m ((c : Thread nD τ).loc main_arg0)) (m ((c : Thread nD τ).loc main_arg2))
          (m ((c : Thread nD τ).loc main_arg3)) (m ((c : Thread nD τ).loc main_arg4)) := by
  unfold Pipeline.afterTail₀
  show StableHlo.after hostOps1 _ (Proc.devRef .tc main_v5) = _
  after_results
  funext i
  obtain ⟨b, h, w, rfl⟩ : ∃ (b : Fin 8) (h w : Fin 64), i = ix4 b (0 : Fin 1) h w := ⟨i 0, i 2, i 3, idx4_eq i⟩
  show shapeCast S8x1x64x64 (Pipeline.withArrays (cfgs 0).spec c (V0 m c) (fun w => (dats m 0 c).arrAt w (cfgs 0).N)
      (Proc.devRef .tc main_v4)) shapeCasts_S8x4096_S8x1x64x64 (ix4 b (0 : Fin 1) h w)
    = resultAt (m ((c : Thread nD τ).loc main_arg0)) (m ((c : Thread nD τ).loc main_arg2))
        (m ((c : Thread nD τ).loc main_arg3)) (m ((c : Thread nD τ).loc main_arg4)) b h w
  rw [tail_flat m c]
  exact (unflatten_result (flat m c) _ b h w).trans (flat_col m c b h w)

/-- The second result's term: the first argument plus two broadcast scalars, 8 (log (4096 − 1) − log 4096) and
    8 Σ log |ω|. -/
def logDet (ld : FVec Ideal S1 .f32) (wt : FVec Ideal S1x64x64 .f32) : FVec Ideal S1 .f32 :=
  addf (addf ld (broadcastInDim S1 ![] bcast_S_S1 (mulf (constant (F := Ideal) S_ .f32 0x41000000#32)
      (subf (Host.log (subf (constant (F := Ideal) S_ .f32 0x45800000#32) (constant (F := Ideal) S_ .f32 0x3F800000#32)))
        (Host.log (constant (F := Ideal) S_ .f32 0x45800000#32))))))
    (broadcastInDim S1 ![] bcast_S_S1 (mulf (constant (F := Ideal) S_ .f32 0x41000000#32)
      (Host.reduceAdd (F := Ideal) (Host.log (Host.absf wt)) (constant (F := Ideal) S_ .f32 0x00000000#32)
        reducesTo_S1x64x64_S_d0_1_2 h_S_)))

theorem second_result (c : Dev nD) :
    Pipeline.afterTail₀ cfgs (dats m) 0 (V0 m) [hostOps1] c main_v18
      = logDet (m ((c : Thread nD τ).loc main_arg1)) (m ((c : Thread nD τ).loc main_arg2)) := by
  unfold Pipeline.afterTail₀
  show StableHlo.after hostOps1 _ (Proc.devRef .tc main_v18) = _
  after_results
  rw [tail_arg1 m c, tail_arg2 m c]
  rfl

/-! ## The run, read -/

/-- Every weakly fair execution of the idealized kernel ends with the first result at the specification's result
    array, the second at `logDet`, and the five arguments unchanged. -/
theorem run : θ_run defs (onTc (τ := τ) (main (F := Ideal))) ⟨m, fun _ => 0, ρ⟩ fun r => ∀ c : Dev nD,
      r.2.mem ((c.tc : Thread nD τ).loc main_v5) = result (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v18) = logDet (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (first_result m c),
      ((h c).2 main_v18 (Pipeline.mem_restRefs_of main_v18 (by decide) (by decide))).trans (second_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Value

end
-- ==== Proof.Finite.lean ====
/-
  From the precondition to real entries.

  The precondition is the conjunction, over the five arguments, of "every entry's absolute value is below +∞".
  An extended real whose absolute value max (a, −a) is below +∞ is neither +∞ nor −∞, so it is a real number.
  Only the input's and the mask's entries are needed.
-/
import proofs.«426860_j11811160064499_3_alg».proof.Proof.Gen.Pre_finite_inputs
import Idealize.ShloMosaic.Lib.ReduceAll
import Idealize.ShloMosaic.Lib.ValueIdx
import Idealize.ShloMosaic.PureOps.Ideal.Laws

noncomputable section

open Idealize.ShloMosaic

namespace Cert.Pre_finite_inputs.Finite

open Cert.Pre_finite_inputs

instance : Subsingleton S_.Idx := ⟨fun a b => funext fun d => d.elim0⟩

/-- An extended real whose absolute value compares below the pattern of +∞ is a real number. -/
theorem real_of_abs_lt_inf (a : EReal)
    (h : FloatOps.cmpf (F := Ideal) (φ := .f32) .olt (FloatOps.hostAbsf (F := Ideal) (φ := .f32) a)
      (FloatOps.ofBits (F := Ideal) .f32 0x7F800000#32) = 1#1) : ∃ r : ℝ, a = (r : EReal) := by
  have hinf : Ideal.ofBits .f32 0x7F800000#32 = ⊤ := by simp [Ideal.ofBits, Ideal.ieee]
  induction a using EReal.rec with
  | bot => exfalso; simp [Ideal.cmpf_def, Ideal.cmp, Ideal.absf_def, hinf] at h
  | top => exfalso; simp [Ideal.cmpf_def, Ideal.cmp, Ideal.absf_def, hinf] at h
  | coe r => exact ⟨r, rfl⟩

variable [Facts]

/-- Under the precondition every entry of the first and of the fifth argument is a real number. -/
theorem real_entries (x0 : FVec Ideal S8x1x64x64 .f32) (x1 : FVec Ideal S1 .f32) (x2 x3 : FVec Ideal S1x64x64 .f32)
    (x4 : FVec Ideal S4096x64x64 .f32) (h : fn (F := Ideal) x0 x1 x2 x3 x4 = fun _ => 1#1) :
    (∀ i, ∃ r : ℝ, x0 i = (r : EReal)) ∧ (∀ i, ∃ r : ℝ, x4 i = (r : EReal)) := by
  have h0 := congrFun h ValueIdx.ix0
  dsimp only [fn, fn_part1, andi] at h0
  simp only [IntOp.andi_eq_one] at h0
  obtain ⟨⟨⟨⟨e0, -⟩, -⟩, -⟩, e4⟩ := h0
  exact ⟨fun i => real_of_abs_lt_inf (x0 i) (Host.reduce_andi_all _ _ _ _ _ e0 i),
    fun i => real_of_abs_lt_inf (x4 i) (Host.reduce_andi_all _ _ _ _ _ e4 i)⟩

end Cert.Pre_finite_inputs.Finite

end
-- ==== Proof.lean ====
/-
  The kernel computes the reference's affine normalisation step.

  Both programs return, from an input x[b,0,h,w], a weight ω[0,h,w], a bias β[0,h,w] and a mask m[t,h,w],
      out[b,0,h,w] = ((x[b,0,h,w] + c[b,h,w]) − β[0,h,w]) · ω[0,h,w],
  and, from a scalar ld[0] and the weight, ld[0] + 8 (log (4096 − 1) − log 4096) + 8 Σ_{h,w} log |ω[0,h,w]|.
  The reference takes the correction as c[b,h,w] = Σ_t x[b,0,h,w] · m[t,h,w]. The kernel works on the flattened
  arrays (column p = 64 h + w): over a grid of two column blocks by four row blocks it accumulates the mask's
  column sums S[p] = Σ_t m2[t,p] in a carried row, 1024 rows at a step, and at each column block's last step
  forms c = x · S. The two corrections agree because a factor that does not depend on t leaves the sum,
  x · Σ_t m_t = Σ_t x · m_t; over the extended reals this needs x and the m_t to be real numbers, which is what the
  precondition (every input entry of finite absolute value) gives. The sum over t in four consecutive stretches
  is the same sum. The second result is the same chain of host operations in both programs.

  The three frames: the kernel's two are the generated ones; the reference's is its generated run with the
  results dropped. The idealization rewrote nothing, so its preservation claim is trivial.
-/
import proofs.«426860_j11811160064499_3_alg».proof.Defs
import proofs.«426860_j11811160064499_3_alg».proof.Proof.Gen.Kernel
import proofs.«426860_j11811160064499_3_alg».proof.Proof.Gen.Kernel.Skeleton
import proofs.«426860_j11811160064499_3_alg».proof.Proof.Gen.Kernel.Launch
import proofs.«426860_j11811160064499_3_alg».proof.Proof.Gen.Kernel.Points
import proofs.«426860_j11811160064499_3_alg».proof.Proof.Gen.Kernel.Frame
import proofs.«426860_j11811160064499_3_alg».proof.Proof.Gen.KernelIdeal
import proofs.«426860_j11811160064499_3_alg».proof.Proof.Gen.KernelIdeal.Skeleton
import proofs.«426860_j11811160064499_3_alg».proof.Proof.Gen.KernelIdeal.Launch
import proofs.«426860_j11811160064499_3_alg».proof.Proof.Gen.KernelIdeal.Points
import proofs.«426860_j11811160064499_3_alg».proof.Proof.Gen.KernelIdeal.Frame
import proofs.«426860_j11811160064499_3_alg».proof.Proof.Gen.ReferenceIdeal
import proofs.«426860_j11811160064499_3_alg».proof.Proof.Gen.ReferenceIdeal.Run
import proofs.«426860_j11811160064499_3_alg».proof.Proof.Gen.ReferenceIdeal.Read
import proofs.«426860_j11811160064499_3_alg».proof.Proof.Gen.Pre_finite_inputs
import proofs.«426860_j11811160064499_3_alg».proof.Proof.ColumnSum
import proofs.«426860_j11811160064499_3_alg».proof.Proof.ReferenceSum
import proofs.«426860_j11811160064499_3_alg».proof.Proof.KernelValue
import proofs.«426860_j11811160064499_3_alg».proof.Proof.Finite
import Idealize.ShloMosaic.Adequacy
import Idealize.ShloMosaic.Init

noncomputable section

namespace Cert.Proof

open Idealize.ShloMosaic Idealize.SL.Sem

/-- Run from memories agreeing on the arguments, both idealized programs end with the first result at the
    specification's result array of the kernel's arguments and the second at the common host chain: the kernel by
    its value run, the reference by its generated run read one operation at a time, with the factor taken out of
    the sum for real input and mask entries. -/
theorem algebraic [hKernelIdeal : Cert.KernelIdeal.Facts] [hReferenceIdeal : Cert.ReferenceIdeal.Facts]
    [hPre_finite_inputs : Cert.Pre_finite_inputs.Facts] :
    Cert.algebraic_KernelIdeal_ReferenceIdeal := by
  intro m ρ m' ρ' hpre hagree
  refine ⟨fun c => Cert.ColumnSum.result (m (((c.tc : Thread Cert.KernelIdeal.nD Cert.KernelIdeal.τ).loc Cert.KernelIdeal.main_arg0))) (m (((c.tc : Thread Cert.KernelIdeal.nD Cert.KernelIdeal.τ).loc Cert.KernelIdeal.main_arg2))) (m (((c.tc : Thread Cert.KernelIdeal.nD Cert.KernelIdeal.τ).loc Cert.KernelIdeal.main_arg3))) (m (((c.tc : Thread Cert.KernelIdeal.nD Cert.KernelIdeal.τ).loc Cert.KernelIdeal.main_arg4))),
    fun c => Cert.KernelIdeal.Value.logDet (m (((c.tc : Thread Cert.KernelIdeal.nD Cert.KernelIdeal.τ).loc Cert.KernelIdeal.main_arg1))) (m (((c.tc : Thread Cert.KernelIdeal.nD Cert.KernelIdeal.τ).loc Cert.KernelIdeal.main_arg2))),
    Cert.KernelIdeal.Value.run m ρ, ?_⟩
  refine (θ_run Cert.ReferenceIdeal.defs _ _).mono (fun _ h c => ?_) (Cert.ReferenceIdeal.Value.run (F := Ideal) m' ρ')
  obtain ⟨hx, hm⟩ := Cert.Pre_finite_inputs.Finite.real_entries _ _ _ _ _ (hpre c)
  refine ⟨(h c).1.trans ?_, (h c).2.1.trans ?_, (h c).2.2⟩
  · rw [Cert.ReferenceIdeal.Read.val_main_v25_eq, (hagree c).1, (hagree c).2.2.1, (hagree c).2.2.2.1, (hagree c).2.2.2.2]
    exact Cert.ReferenceIdeal.RefValue.first_result _ _ _ _ hx hm
  · rw [(hagree c).2.1, (hagree c).2.2.1]
    rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
